-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S8x128 : Shape := ⟨2, ![8, 128]⟩
abbrev S8x160000 : Shape := ⟨2, ![8, 160000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S8x160000 : S_.BroadcastsInDim S8x160000 (![] : Fin 0 → Fin S8x160000.rank)
  reducesTo_S8x160000_S_d0_1 : S8x160000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg2 : IVec S8x160000 32) (main_v33 : IVec S_ 1) : IVec S_ 1 :=
  let main_c_12 : IVec S_ 32 := constantI S_ 32 0#32
  let main_v34 : IVec S8x160000 32 := broadcastInDim S8x160000 ![] bcast_S_S8x160000 main_c_12
  let main_v35 : IVec S8x160000 1 := cmpi .sge main_arg2 main_v34
  let main_c_13 : IVec S_ 32 := constantI S_ 32 40000#32
  let main_v36 : IVec S8x160000 32 := broadcastInDim S8x160000 ![] bcast_S_S8x160000 main_c_13
  let main_v37 : IVec S8x160000 1 := cmpi .slt main_arg2 main_v36
  let main_v38 : IVec S8x160000 1 := andi main_v35 main_v37
  let main_c_14 : IVec S_ 1 := constantI S_ 1 1#1
  let main_v39 : IVec S_ 1 := (fun x v => Host.reduce IntOp.andi x v reducesTo_S8x160000_S_d0_1 h_S_) main_v38 main_c_14
  let main_v40 : IVec S_ 1 := andi main_v33 main_v39
  main_v40

def fn_part1 {F : FTy → Type} [FloatOps F] (main_arg2 : IVec S8x160000 32) (main_arg6 : FVec F S128x128 .f32) (main_arg7 : FVec F S128 .f32) (main_arg8 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg2 main_v33

def fn {F : FTy → Type} [FloatOps F] (main_arg0 : FVec F S40000x128 .f32) (main_arg1 : FVec F S8x128 .f32) (main_arg2 : IVec S8x160000 32) (main_arg3 : IVec S8x160000 32) (main_arg4 : FVec F S8x160000 .f32) (main_arg5 : FVec F S128x128 .f32) (main_arg6 : FVec F S128x128 .f32) (main_arg7 : FVec F S128 .f32) (main_arg8 : FVec F S128x1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x160000 .f32 := Host.absf main_arg4
  let main_cst_2 : FVec F S_ .f32 := constant S_ .f32 0x7F800000#32
  let main_v10 : FVec F S8x160000 .f32 := broadcastInDim S8x160000 ![] bcast_S_S8x160000 main_cst_2
  let main_v11 : IVec S8x160000 1 := cmpf .olt main_v9 main_v10
  let main_c_3 : IVec S_ 1 := constantI S_ 1 1#1
  let main_v12 : IVec S_ 1 := (fun x v => Host.reduce IntOp.andi x v reducesTo_S8x160000_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_v13 main_v16
-- ==== Kernel.lean ====
abbrev S40000x128 : Shape := ⟨2, ![40000, 128]⟩
abbrev S8x128 : Shape := ⟨2, ![8, 128]⟩
abbrev S8x160000 : Shape := ⟨2, ![8, 160000]⟩
abbrev S128x128 : Shape := ⟨2, ![128, 128]⟩
abbrev S128 : Shape := ⟨1, ![128]⟩
abbrev S128x1 : Shape := ⟨2, ![128, 1]⟩
abbrev S5000x128 : Shape := ⟨2, ![5000, 128]⟩
abbrev S1x128 : Shape := ⟨2, ![1, 128]⟩
abbrev S8x1 : Shape := ⟨2, ![8, 1]⟩
abbrev S_ : Shape := ⟨0, ![]⟩
abbrev S8 : Shape := ⟨1, ![8]⟩
abbrev S1280000 : Shape := ⟨1, ![1280000]⟩
abbrev S1280000x1 : Shape := ⟨2, ![1280000, 1]⟩
abbrev S1280000x128 : Shape := ⟨2, ![1280000, 128]⟩

abbrev nBuf : Space → Nat
  | .hbm => 48
  | .vmem => 5
  | .smem => 0
  | _ => 0

abbrev bufTy : (tb : Table) → Fin (tcTables nBuf tb) → BufTy
  | .hbm, ⟨0, _⟩ => ⟨S40000x128, .f32⟩
  | .hbm, ⟨1, _⟩ => ⟨S8x128, .f32⟩
  | .hbm, ⟨2, _⟩ => ⟨S8x160000, .i32⟩
  | .hbm, ⟨3, _⟩ => ⟨S8x160000, .i32⟩
  | .hbm, ⟨4, _⟩ => ⟨S8x160000, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S40000x128, .bf16⟩
  | .hbm, ⟨10, _⟩ => ⟨S8x128, .f32⟩
  | .hbm, ⟨11, _⟩ => ⟨S1x128, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .f32⟩
  | .hbm, ⟨19, _⟩ => ⟨S8x1, .f32⟩
  | .hbm, ⟨20, _⟩ => ⟨S8x1, .f32⟩
  | .hbm, ⟨21, _⟩ => ⟨S_, .f32⟩
  | .hbm, ⟨22, _⟩ => ⟨S8x1, .f32⟩
  | .hbm, ⟨23, _⟩ => ⟨S8x1, .f32⟩
  | .hbm, ⟨24, _⟩ => ⟨S8, .f32⟩
  | .hbm, ⟨25, _⟩ => ⟨S8x1, .f32⟩
  | .hbm, ⟨26, _⟩ => ⟨S8x160000, .f32⟩
  | .hbm, ⟨27, _⟩ => ⟨S8x160000, .f32⟩
  | .hbm, ⟨28, _⟩ => ⟨S1280000, .f32⟩
  | .hbm, ⟨29, _⟩ => ⟨S1280000, .i32⟩
  | .hbm, ⟨30, _⟩ => ⟨S1280000x1, .f32⟩
  | .hbm, ⟨31, _⟩ => ⟨S1280000, .i32⟩
  | .hbm, ⟨32, _⟩ => ⟨S_, .i32⟩
  | .hbm, ⟨33, _⟩ => ⟨S1280000, .i32⟩
  | .hbm, ⟨34, _⟩ => ⟨S1280000, .i1⟩
  | .hbm, ⟨35, _⟩ => ⟨S_, .i32⟩
  | .hbm, ⟨36, _⟩ => ⟨S1280000, .i32⟩
  | .hbm, ⟨37, _⟩ => ⟨S1280000, .i32⟩
  | .hbm, ⟨38, _⟩ => ⟨S1280000, .i32⟩
  | .hbm, ⟨39, _⟩ => ⟨S1280000x1, .i32⟩
  | .hbm, ⟨40, _⟩ => ⟨S1280000x128, .bf16⟩
  | .hbm, ⟨41, _⟩ => ⟨S1280000x128, .f32⟩
  | .hbm, ⟨42, _⟩ => ⟨S1280000x128, .f32⟩
  | .hbm, ⟨43, _⟩ => ⟨S1280000x128, .f32⟩
  | .hbm, ⟨44, _⟩ => ⟨S_, .f32⟩
  | .hbm, ⟨45, _⟩ => ⟨S40000x128, .f32⟩
  | .hbm, ⟨46, _⟩ => ⟨S1280000x1, .i32⟩
  | .hbm, ⟨47, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x1 : S_.BroadcastsInDim S8x1 (![] : Fin 0 → Fin S8x1.rank)
  shapeCasts_S8x1_S8 : S8x1.ShapeCasts S8
  bcast_S8_S8x1_0 : S8.BroadcastsInDim S8x1 (![0] : Fin 1 → Fin S8x1.rank)
  bcast_S8x1_S8x160000_0_1 : S8x1.BroadcastsInDim S8x160000 (![0, 1] : Fin 2 → Fin S8x160000.rank)
  shapeCasts_S8x160000_S1280000 : S8x160000.ShapeCasts S1280000
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S1280000x1_S1280000x128_0_1 : S1280000x1.BroadcastsInDim S1280000x128 (![0, 1] : Fin 2 → Fin S1280000x128.rank)
  bcast_S_S40000x128 : S_.BroadcastsInDim S40000x128 (![] : Fin 0 → Fin S40000x128.rank)
  dot_S5000x128_S128x128_S5000x128_1_0_0_1_n_n_wf : DotDims.WF S5000x128 S128x128 S5000x128 [1] [0] [0] [1] [] []
  dot_S8x128_S128x128_S8x128_1_0_0_1_n_n_wf : DotDims.WF S8x128 S128x128 S8x128 [1] [0] [0] [1] [] []
  dot_S8x128_S128x1_S8x1_1_0_0_1_n_n_wf : DotDims.WF S8x128 S128x1 S8x1 [1] [0] [0] [1] [] []
  gather_S40000x128_S1280000x1_S1280000x128_1_0_n_n_0_1_1128_wf : GatherDims.WF S40000x128 S1280000x1 S1280000x128 [1] [0] [] [0] [] 1 ![1, 128]
  scatter_S40000x128_S1280000x1_S1280000x128_1_0_0_1_wf : ScatterDims.WF S40000x128 S1280000x1 S1280000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .bf16 = 32 ∨ (Rect.block (s := S40000x128) S5000x128.size (cc0_transform_2 i) (hinb0_2 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x1_S8x1_1_0_0_1_n_n : DotDims S8x128 S128x1 S8x1 where
  lhsContracting := [1]
  rhsContracting := [0]
  lhsNonContracting := [0]
  rhsNonContracting := [1]
  lhsBatch := []
  rhsBatch := []
  wf := dot_S8x128_S128x1_S8x1_1_0_0_1_n_n_wf
def gather_S40000x128_S1280000x1_S1280000x128_1_0_n_n_0_1_1128 : GatherDims S40000x128 S1280000x1 S1280000x128 where
  offsetDims := [1]
  collapsedSliceDims := [0]
  operandBatchingDims := []
  startIndicesBatchingDims := []
  startIndexMap := [0]
  indexVectorDim := 1
  sliceSizes := ![1, 128]
  wf := gather_S40000x128_S1280000x1_S1280000x128_1_0_n_n_0_1_1128_wf
def scatter_S40000x128_S1280000x1_S1280000x128_1_0_0_1 : ScatterDims S40000x128 S1280000x1 S1280000x128 where
  updateWindowDims := [1]
  insertedWindowDims := [0]
  scatterDimsToOperandDims := [0]
  indexVectorDim := 1
  wf := scatter_S40000x128_S1280000x1_S1280000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S40000x128 : Shape := ⟨2, ![40000, 128]⟩
abbrev S8x128 : Shape := ⟨2, ![8, 128]⟩
abbrev S8x160000 : Shape := ⟨2, ![8, 160000]⟩
abbrev S128x128 : Shape := ⟨2, ![128, 128]⟩
abbrev S128 : Shape := ⟨1, ![128]⟩
abbrev S128x1 : Shape := ⟨2, ![128, 1]⟩
abbrev S8 : Shape := ⟨1, ![8]⟩
abbrev S8x1 : Shape := ⟨2, ![8, 1]⟩
abbrev S_ : Shape := ⟨0, ![]⟩
abbrev S1280000 : Shape := ⟨1, ![1280000]⟩
abbrev S1280000x1 : Shape := ⟨2, ![1280000, 1]⟩
abbrev S1280000x128 : Shape := ⟨2, ![1280000, 128]⟩
abbrev S320000x128 : Shape := ⟨2, ![320000, 128]⟩
abbrev S8x40000x128 : Shape := ⟨3, ![8, 40000, 128]⟩
abbrev S1x128 : Shape := ⟨2, ![1, 128]⟩
abbrev S8x1x1 : Shape := ⟨3, ![8, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S8x128, .f32⟩
  | .hbm, ⟨2, _⟩ => ⟨S8x160000, .i32⟩
  | .hbm, ⟨3, _⟩ => ⟨S8x160000, .i32⟩
  | .hbm, ⟨4, _⟩ => ⟨S8x160000, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S8x160000, .i32⟩
  | .hbm, ⟨15, _⟩ => ⟨S8x160000, .i32⟩
  | .hbm, ⟨16, _⟩ => ⟨S1280000, .i32⟩
  | .hbm, ⟨17, _⟩ => ⟨S1280000x1, .f32⟩
  | .hbm, ⟨18, _⟩ => ⟨S1280000, .i32⟩
  | .hbm, ⟨19, _⟩ => ⟨S_, .i32⟩
  | .hbm, ⟨20, _⟩ => ⟨S1280000, .i32⟩
  | .hbm, ⟨21, _⟩ => ⟨S1280000, .i1⟩
  | .hbm, ⟨22, _⟩ => ⟨S_, .i32⟩
  | .hbm, ⟨23, _⟩ => ⟨S1280000, .i32⟩
  | .hbm, ⟨24, _⟩ => ⟨S1280000, .i32⟩
  | .hbm, ⟨25, _⟩ => ⟨S1280000, .i32⟩
  | .hbm, ⟨26, _⟩ => ⟨S1280000x1, .i32⟩
  | .hbm, ⟨27, _⟩ => ⟨S1280000x128, .f32⟩
  | .hbm, ⟨28, _⟩ => ⟨S1280000x128, .f32⟩
  | .hbm, ⟨29, _⟩ => ⟨S1280000x128, .f32⟩
  | .hbm, ⟨30, _⟩ => ⟨S_, .f32⟩
  | .hbm, ⟨31, _⟩ => ⟨S320000x128, .f32⟩
  | .hbm, ⟨32, _⟩ => ⟨S1280000x1, .i32⟩
  | .hbm, ⟨33, _⟩ => ⟨S320000x128, .f32⟩
  | .hbm, ⟨34, _⟩ => ⟨S8x40000x128, .f32⟩
  | .hbm, ⟨35, _⟩ => ⟨S8x128, .f32⟩
  | .hbm, ⟨36, _⟩ => ⟨S1x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S8x1, .f32⟩
  | .hbm, ⟨41, _⟩ => ⟨S8x1, .f32⟩
  | .hbm, ⟨42, _⟩ => ⟨S8x1, .f32⟩
  | .hbm, ⟨43, _⟩ => ⟨S_, .f32⟩
  | .hbm, ⟨44, _⟩ => ⟨S8x1, .f32⟩
  | .hbm, ⟨45, _⟩ => ⟨S8x1, .f32⟩
  | .hbm, ⟨46, _⟩ => ⟨S_, .f32⟩
  | .hbm, ⟨47, _⟩ => ⟨S8x1, .f32⟩
  | .hbm, ⟨48, _⟩ => ⟨S8x1, .f32⟩
  | .hbm, ⟨49, _⟩ => ⟨S8x1x1, .f32⟩
  | .hbm, ⟨50, _⟩ => ⟨S8x40000x128, .f32⟩
  | .hbm, ⟨51, _⟩ => ⟨S8x40000x128, .f32⟩
  | .hbm, ⟨52, _⟩ => ⟨S_, .f32⟩
  | .hbm, ⟨53, _⟩ => ⟨S40000x128, .f32⟩
  | .hbm, ⟨54, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x160000_0_1 : S8x1.BroadcastsInDim S8x160000 (![0, 1] : Fin 2 → Fin S8x160000.rank)
  shapeCasts_S8x160000_S1280000 : S8x160000.ShapeCasts S1280000
  shapeCasts_S8x160000_S1280000x1 : S8x160000.ShapeCasts S1280000x1
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x128_0_1 : S1280000x1.BroadcastsInDim S1280000x128 (![0, 1] : Fin 2 → Fin S1280000x128.rank)
  bcast_S_S320000x128 : S_.BroadcastsInDim S320000x128 (![] : Fin 0 → Fin S320000x128.rank)
  shapeCasts_S320000x128_S8x40000x128 : S320000x128.ShapeCasts S8x40000x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S8x1_S8x1x1_0_2 : S8x1.BroadcastsInDim S8x1x1 (![0, 2] : Fin 2 → Fin S8x1x1.rank)
  bcast_S8x1x1_S8x40000x128_0_1_2 : S8x1x1.BroadcastsInDim S8x40000x128 (![0, 1, 2] : Fin 3 → Fin S8x40000x128.rank)
  reducesTo_S8x40000x128_S40000x128_d0 : S8x40000x128.ReducesTo [0] S40000x128
  h_S_ : 0 < S_.numel
  gather_S40000x128_S1280000x1_S1280000x128_1_0_n_n_0_1_1128_wf : GatherDims.WF S40000x128 S1280000x1 S1280000x128 [1] [0] [] [0] [] 1 ![1, 128]
  scatter_S320000x128_S1280000x1_S1280000x128_1_0_0_1_wf : ScatterDims.WF S320000x128 S1280000x1 S1280000x128 [1] [0] [0] 1
  dot_S8x128_S128x128_S8x128_1_0_0_1_n_n_wf : DotDims.WF S8x128 S128x128 S8x128 [1] [0] [0] [1] [] []
  dot_S8x128_S128x1_S8x1_1_0_0_1_n_n_wf : DotDims.WF S8x128 S128x1 S8x1 [1] [0] [0] [1] [] []
  dot_S40000x128_S128x128_S40000x128_1_0_0_1_n_n_wf : DotDims.WF S40000x128 S128x128 S40000x128 [1] [0] [0] [1] [] []

variable [Facts₀]

def gather_S40000x128_S1280000x1_S1280000x128_1_0_n_n_0_1_1128 : GatherDims S40000x128 S1280000x1 S1280000x128 where
  offsetDims := [1]
  collapsedSliceDims := [0]
  operandBatchingDims := []
  startIndicesBatchingDims := []
  startIndexMap := [0]
  indexVectorDim := 1
  sliceSizes := ![1, 128]
  wf := gather_S40000x128_S1280000x1_S1280000x128_1_0_n_n_0_1_1128_wf
def scatter_S320000x128_S1280000x1_S1280000x128_1_0_0_1 : ScatterDims S320000x128 S1280000x1 S1280000x128 where
  updateWindowDims := [1]
  insertedWindowDims := [0]
  scatterDimsToOperandDims := [0]
  indexVectorDim := 1
  wf := scatter_S320000x128_S1280000x1_S1280000x128_1_0_0_1_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x1_S8x1_1_0_0_1_n_n : DotDims S8x128 S128x1 S8x1 where
  lhsContracting := [1]
  rhsContracting := [0]
  lhsNonContracting := [0]
  rhsNonContracting := [1]
  lhsBatch := []
  rhsBatch := []
  wf := dot_S8x128_S128x1_S8x1_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.LibRowIndex.lean ====
/-
  Rows of a matrix picked by an integer column of row numbers.

  `x[idx]` on a matrix `x : [N, C]` with `idx : [n]` lowers to a gather whose start indices are the column `[n, 1]`:
  result row `j` is operand row `idx[j]`, the row number read signed and clamped into `[0, N − 1]`.
  `segment_sum` / `x.at[idx].add(u)` lowers to a scatter with the same column: update row `j` is added onto operand
  row `idx[j]`, the row number read signed and NOT clamped, and the row is dropped when the number is outside `[0, N)`.
  Read at an element, over the extended reals the scatter is the operand's element plus the sum of the updates' elements
  of the rows that name it.
-/
import Idealize.ShloMosaic.PureOps.Ideal
import Idealize.ShloMosaic.Lib.ValueIdx

noncomputable section

open scoped BigOperators

namespace Idealize.ShloMosaic.RowIndex

open Idealize.ShloMosaic Idealize.ShloMosaic.ValueIdx

variable {α : Type}

/-- The gather's dimension numbers for `x[idx]`, operand `[N, C]`, start indices `[n, 1]`, result `[n, C]`. -/
abbrev rowGatherDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row a start index names once clamped into the operand. -/
def clampRow {w : Nat} (N : Nat) (hN : 0 < N) (b : BitVec w) : Fin N := ⟨min b.toInt.toNat (N - 1), by omega⟩

/-- THE ROW GATHER READ AT `(j, o)`: column `o` of the operand's row `idx[j]`, clamped. -/
theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : Fin n) (o : Fin C) :
    Host.gather (rowGatherDims N n C wf) x idx (ix2 j o) = x (ix2 (clampRow N hN (idx (ix2 j 0))) o) := by
  unfold Host.gather
  congr 1
  funext a
  refine Fin.ext ?_
  match a with
  | ⟨0, _⟩ =>
    -- the collapsed axis: the clamped row number, no batching and no offset coordinate
    show (rowGatherDims N n C wf).start (ix2 j o) idx 0 + (rowGatherDims N n C wf).batchCoord (ix2 j o) 0
      + (rowGatherDims N n C wf).offCoord (ix2 j o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N n C wf).startIndexMap from List.mem_singleton.mpr rfl)]
    have hsi : (rowGatherDims N n C wf).siIdx (ix2 j o) ⟨List.idxOf (0 : Fin 2) (rowGatherDims N n C wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    -- the offset axis: start 0, no batching coordinate, the result's column as offset coordinate
    show (rowGatherDims N n C wf).start (ix2 j o) idx 1 + (rowGatherDims N n C wf).batchCoord (ix2 j o) 1
      + (rowGatherDims N n C wf).offCoord (ix2 j o) 1 = _
    rw [GatherDims.batchCoord_eq_zero _ _ _ List.not_mem_nil]
    unfold GatherDims.start
    have h1 : (1 : Fin 2) ∉ ([0] : List (Fin 2)) := by decide
    rw [dif_neg (show (1 : Fin 2) ∉ (rowGatherDims N n C wf).startIndexMap from h1)]
    simp only [Nat.add_zero, Nat.zero_add]
    unfold GatherDims.offCoord
    have h2 : (1 : Fin 2) ∈ (List.finRange 2).filter (fun a => a ∉ ([0] ++ [] : List (Fin 2))) := by decide
    rw [dif_pos (show (1 : Fin 2) ∈ (rowGatherDims N n C wf).sKept from h2)]
    rfl

/-- The scatter's dimension numbers for `x.at[idx].add(u)` by rows: operand `[N, C]`, indices `[n, 1]`, updates `[n, C]`. -/
abbrev rowScatterDims (N n C : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the inserted axis (operand axis 0) the window starts at row `j`'s number, read signed. -/
private theorem rowScatter_start0 {N n C w : Nat}
    (wf : ScatterDims.WF ⟨2, ![N, C]⟩ ⟨2, ![n, 1]⟩ ⟨2, ![n, C]⟩ [1] [0] [0] 1)
    (idx : IVec ⟨2, ![n, 1]⟩ w) (j : Fin n) (o : Fin C) :
    (rowScatterDims N n C wf).start (ix2 j o) idx 0 = (idx (ix2 j 0)).toInt := by
  unfold ScatterDims.start
  rw [dif_pos (show (0 : Fin 2) ∈ (rowScatterDims N n C wf).scatterDimsToOperandDims from List.mem_singleton.mpr rfl)]
  have hsi : (rowScatterDims N n C wf).siIdx (ix2 j o)
      ⟨List.idxOf (0 : Fin 2) (rowScatterDims N n C wf).scatterDimsToOperandDims,
        List.idxOf_lt_length_iff.2 (List.mem_singleton.mpr rfl)⟩ = ix2 j 0 := by
    funext b; refine Fin.ext ?_
    match b with
    | ⟨0, _⟩ => rfl
    | ⟨1, _⟩ => rfl
  rw [hsi]

/-- On the window axis (operand axis 1) the window starts at 0: the map does not name it. -/
private theorem rowScatter_start1 {N n C w : Nat}
    (wf : ScatterDims.WF ⟨2, ![N, C]⟩ ⟨2, ![n, 1]⟩ ⟨2, ![n, C]⟩ [1] [0] [0] 1)
    (idx : IVec ⟨2, ![n, 1]⟩ w) (j : Fin n) (o : Fin C) :
    (rowScatterDims N n C wf).start (ix2 j o) idx 1 = 0 := by
  unfold ScatterDims.start
  have h1 : (1 : Fin 2) ∉ ([0] : List (Fin 2)) := by decide
  rw [dif_neg (show (1 : Fin 2) ∉ (rowScatterDims N n C wf).scatterDimsToOperandDims from h1)]

/-- The inserted axis has no window coordinate. -/
private theorem rowScatter_window0 {N n C : Nat}
    (wf : ScatterDims.WF ⟨2, ![N, C]⟩ ⟨2, ![n, 1]⟩ ⟨2, ![n, C]⟩ [1] [0] [0] 1) (j : Fin n) (o : Fin C) :
    (rowScatterDims N n C wf).window (ix2 j o) 0 = 0 := by
  unfold ScatterDims.window
  have h0 : (0 : Fin 2) ∉ (List.finRange 2).filter (fun a => a ∉ ([0] : List (Fin 2))) := by decide
  rw [dif_neg (show (0 : Fin 2) ∉ (rowScatterDims N n C wf).sKept from h0)]

/-- The window axis's coordinate is the update's column. -/
private theorem rowScatter_window1 {N n C : Nat}
    (wf : ScatterDims.WF ⟨2, ![N, C]⟩ ⟨2, ![n, 1]⟩ ⟨2, ![n, C]⟩ [1] [0] [0] 1) (j : Fin n) (o : Fin C) :
    (rowScatterDims N n C wf).window (ix2 j o) 1 = o.val := by
  unfold ScatterDims.window
  have h1 : (1 : Fin 2) ∈ (List.finRange 2).filter (fun a => a ∉ ([0] : List (Fin 2))) := by decide
  rw [dif_pos (show (1 : Fin 2) ∈ (rowScatterDims N n C wf).sKept from h1)]
  rfl

/-- Update element `(j, o)` lands on operand element `(i, o')` exactly when the columns agree and row `j`'s number,
    read signed, is `i`. -/
theorem resultIdx?_rows_eq_some_iff {N n C w : Nat}
    (wf : ScatterDims.WF ⟨2, ![N, C]⟩ ⟨2, ![n, 1]⟩ ⟨2, ![n, C]⟩ [1] [0] [0] 1)
    (idx : IVec ⟨2, ![n, 1]⟩ w) (j : Fin n) (o : Fin C) (i : Fin N) (o' : Fin C) :
    (rowScatterDims N n C wf).resultIdx? (ix2 j o) idx = some (ix2 i o')
      ↔ (idx (ix2 j 0)).toInt = (i.val : Int) ∧ o = o' := by
  have hs0 := rowScatter_start0 wf idx j o
  have hs1 := rowScatter_start1 wf idx j o
  have hw0 := rowScatter_window0 wf j o
  have hw1 := rowScatter_window1 wf j o
  unfold ScatterDims.resultIdx?
  constructor
  · intro h
    split at h
    · rename_i hin
      have he := Option.some.inj h
      -- read the equation of indices on each axis
      have e0 := congrArg (fun f : (⟨2, ![N, C]⟩ : Shape).Idx => (f 0).val) he
      have e1 := congrArg (fun f : (⟨2, ![N, C]⟩ : Shape).Idx => (f 1).val) he
      have b0 := (hin 0).1
      simp only [hs0, hw0] at e0 b0
      simp only [hs1, hw1] at e1
      have e0' : ((idx (ix2 j 0)).toInt + ((0 : Nat) : Int)).toNat = i.val := e0
      have e1' : ((0 : Int) + (o.val : Int)).toNat = o'.val := e1
      refine ⟨by omega, Fin.ext (by omega)⟩
    · exact absurd h (by simp)
  · rintro ⟨hi, rfl⟩
    have hin : ∀ a, 0 ≤ (rowScatterDims N n C wf).start (ix2 j o) idx a + (rowScatterDims N n C wf).window (ix2 j o) a ∧
        (rowScatterDims N n C wf).start (ix2 j o) idx a + (rowScatterDims N n C wf).window (ix2 j o) a
          < (⟨2, ![N, C]⟩ : Shape).size a := by
      intro a
      match a with
      | ⟨0, _⟩ =>
        show 0 ≤ (rowScatterDims N n C wf).start (ix2 j o) idx 0 + (rowScatterDims N n C wf).window (ix2 j o) 0 ∧
          (rowScatterDims N n C wf).start (ix2 j o) idx 0 + (rowScatterDims N n C wf).window (ix2 j o) 0 < (N : Int)
        rw [hs0, hw0, hi]
        have := i.isLt
        omega
      | ⟨1, _⟩ =>
        show 0 ≤ (rowScatterDims N n C wf).start (ix2 j o) idx 1 + (rowScatterDims N n C wf).window (ix2 j o) 1 ∧
          (rowScatterDims N n C wf).start (ix2 j o) idx 1 + (rowScatterDims N n C wf).window (ix2 j o) 1 < (C : Int)
        rw [hs1, hw1]
        have := o.isLt
        omega
    rw [dif_pos hin]
    congr 1
    funext a
    refine Fin.ext ?_
    match a with
    | ⟨0, _⟩ =>
      show ((rowScatterDims N n C wf).start (ix2 j o) idx 0 + (rowScatterDims N n C wf).window (ix2 j o) 0).toNat = i.val
      rw [hs0, hw0, hi]
      omega
    | ⟨1, _⟩ =>
      show ((rowScatterDims N n C wf).start (ix2 j o) idx 1 + (rowScatterDims N n C wf).window (ix2 j o) 1).toNat = o.val
      rw [hs1, hw1]
      omega

/-- THE ROW SCATTER-ADD READ AT `(i, o)` over the extended reals: the operand's element plus the sum, over the update
    rows whose number is `i`, of their element in column `o`. -/
theorem hostScatterAdd_rows_apply {N n C w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (i : Fin N) (o : Fin C) :
    Ideal.hostScatterAdd (rowScatterDims N n C wf) x idx upd (ix2 i o)
      = x (ix2 i o) + ∑ j : Fin n, if (idx (ix2 j 0)).toInt = (i.val : Int) then upd (ix2 j o) else 0 := by
  unfold Ideal.hostScatterAdd
  congr 1
  rw [Finset.sum_filter, sum_idx2]
  refine Finset.sum_congr rfl fun j _ => ?_
  -- the inner sum over the update's columns: only column `o` can land on `(i, o)`
  by_cases hj : (idx (ix2 j 0)).toInt = (i.val : Int)
  · rw [if_pos hj]
    have : ∀ b : Fin C, (if (rowScatterDims N n C wf).resultIdx? (ix2 j b) idx = some (ix2 i o) then upd (ix2 j b) else 0)
        = if b = o then upd (ix2 j b) else 0 := by
      intro b
      by_cases hb : b = o
      · rw [if_pos hb, if_pos ((resultIdx?_rows_eq_some_iff wf idx j b i o).mpr ⟨hj, hb⟩)]
      · rw [if_neg hb, if_neg (fun h => hb ((resultIdx?_rows_eq_some_iff wf idx j b i o).mp h).2)]
    rw [Finset.sum_congr rfl fun b _ => this b, Finset.sum_ite_eq' Finset.univ o, if_pos (Finset.mem_univ o)]
  · rw [if_neg hj]
    refine Finset.sum_eq_zero fun b _ => ?_
    rw [if_neg (fun h => hj ((resultIdx?_rows_eq_some_iff wf idx j b i o).mp h).1)]

end Idealize.ShloMosaic.RowIndex

end
-- ==== Proof.Spec.lean ====
/-
  The two sums the programs' results are, element by element.

  The edges of all relations are listed flat, edge `j` of the list being edge `j % 160000` of relation `j / 160000`.
  Edge `j` has a source node (its entry of the source array, read signed), a destination row (its entry of the
  destination array, a negative one counted from the end, then clamped into the node range), a value, and through its
  relation `r` a gate `σ_r`, the same small chain of host operations in both programs.

  The kernel projects the node features first, `P[i, o] = ∑ k, ent[i, k] · W[k, o]`, and adds onto node `n` the rows
  `(σ_r · val_j) · P[dst_j, ·]` of the edges whose source is `n`. The reference adds `val_j · ent[dst_j, ·]` onto row
  `r · 40000 + src_j` of a table of 8 · 40000 rows, scales relation `r`'s part of the table by `σ_r`, adds the relations,
  and projects last.
-/
import proofs.«408652_j38371237822894_3_alg».proof.Proof.Gen.ReferenceIdeal.Read
import proofs.«408652_j38371237822894_3_alg».proof.Proof.LibRowIndex

noncomputable section

open scoped BigOperators

namespace Cert.Spec

open Idealize.ShloMosaic Idealize.ShloMosaic.ValueIdx Idealize.ShloMosaic.RowIndex
open Cert.ReferenceIdeal Cert.ReferenceIdeal.Read

/-- The left operand's index for output element `i` and contraction coordinate `k`: row of `i`, column `k`. -/
abbrev lrow {R : Nat} (i : (⟨2, ![R, 128]⟩ : Shape).Idx) (k : Fin 128) : (⟨2, ![R, 128]⟩ : Shape).Idx :=
  ix2 (⟨(i 0).val, idx2_lt0 i⟩ : Fin R) k
/-- The right operand's index: row `k`, column of `i`. -/
abbrev rcol {R : Nat} (i : (⟨2, ![R, 128]⟩ : Shape).Idx) (k : Fin 128) : (⟨2, ![128, 128]⟩ : Shape).Idx :=
  ix2 k (⟨(i 1).val, idx2_lt1 i⟩ : Fin 128)

/-- The projected features: `(i, o) ↦ ∑ k, ent[i, k] · W[k, o]`. -/
def proj (ent : S40000x128.Idx → EReal) (W : S128x128.Idx → EReal) : S40000x128.Idx → EReal :=
  fun i => ∑ k : Fin 128, ent (lrow i k) * W (rcol i k)

/-- Edge `j` of the flat list, as (relation, edge of the relation). -/
abbrev un (j : Fin 1280000) : S8x160000.Idx := idx_main_v8 (ix1 j)
/-- Its relation. -/
abbrev relOf (j : Fin 1280000) : Fin 8 := ⟨j.val / 160000, by have := j.isLt; omega⟩

/-- The gate of relation `r`: the logistic function of a two-layer map of the relation's features, as the host
    operations compute it. -/
def gate (x1 : FVec Ideal S8x128 .f32) (x6 : FVec Ideal S128x128 .f32) (x7 : FVec Ideal S128 .f32)
    (x8 : FVec Ideal S128x1 .f32) (r : Fin 8) : EReal :=
  val_main_v33 (F := Ideal) x1 x6 x7 x8 (ix2 r (0 : Fin 1))

/-- The destination row of edge `j`: its entry of the destination array, a negative entry counted from the end,
    clamped into the node range. -/
def dstRow (x3 : IVec S8x160000 32) (j : Fin 1280000) : Fin 40000 :=
  clampRow 40000 (by decide) (val_main_v14 (F := Ideal) x3 (ix2 j (0 : Fin 1)))

/-- The segment number the reference files edge `j` under: relation times 40000 plus source node, as a 32-bit word. -/
def segWord (x2 : IVec S8x160000 32) (j : Fin 1280000) : BitVec 32 := val_main_v6 (F := Ideal) x2 (ix1 j)

/-- The kernel's result at `(n, o)`. -/
def kform (x0 : FVec Ideal S40000x128 .f32) (x1 : FVec Ideal S8x128 .f32) (x2 x3 : IVec S8x160000 32)
    (x4 : FVec Ideal S8x160000 .f32) (x5 x6 : FVec Ideal S128x128 .f32) (x7 : FVec Ideal S128 .f32)
    (x8 : FVec Ideal S128x1 .f32) (n : Fin 40000) (o : Fin 128) : EReal :=
  ∑ j : Fin 1280000, if (x2 (un j)).toInt = (n.val : Int)
    then (gate x1 x6 x7 x8 (relOf j) * x4 (un j)) * proj x0 x5 (ix2 (dstRow x3 j) o) else 0

/-- The reference's result at `(n, o)`. -/
def rform (x0 : FVec Ideal S40000x128 .f32) (x1 : FVec Ideal S8x128 .f32) (x2 x3 : IVec S8x160000 32)
    (x4 : FVec Ideal S8x160000 .f32) (x5 x6 : FVec Ideal S128x128 .f32) (x7 : FVec Ideal S128 .f32)
    (x8 : FVec Ideal S128x1 .f32) (n : Fin 40000) (o : Fin 128) : EReal :=
  ∑ k : Fin 128, (∑ r : Fin 8, (∑ j : Fin 1280000,
      if (segWord x2 j).toInt = ((r.val * 40000 + n.val : Nat) : Int) then x4 (un j) * x0 (ix2 (dstRow x3 j) k) else 0)
        * gate x1 x6 x7 x8 r) * x5 (ix2 k o)

end Cert.Spec

end
-- ==== Proof.KernelProj.lean ====
/-
  The kernel's one region computes the projected node features, block by block: point `t` of the grid of 8 loads rows
  `[5000·t, 5000·(t+1))` of the node features and the whole projection matrix, multiplies them (the narrowing of both
  operands and of the product is the identity on extended reals, the accumulator is zero) and stores the 5000 × 128
  product as block `t` of the output. So the output array ends holding, at `(i, o)`, the sum over `k` of
  `ent[i, k] · W[k, o]`: the blocks tile the rows, and block `t` is the restriction of that one function.
-/
import proofs.«408652_j38371237822894_3_alg».proof.Proof.Gen.KernelIdeal.Frame
import proofs.«408652_j38371237822894_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.Spec (lrow rcol proj)

/-! ## The body's stored value, element by element -/

theorem lhs_pay_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_pay_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_pay_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_pay_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at an element of the block: the row of the loaded features against the column of the
    loaded matrix. -/
theorem pay_apply (x0 : Vec Ideal S5000x128 .f32) (x1 : Vec Ideal S128x128 .f32) (y : S5000x128.Idx) :
    k0_pay1 x0 x1 y = ∑ k : Fin 128, x0 (lrow y k) * x1 (rcol y k) := by
  unfold k0_pay1
  show FloatOps.matmul (F := Ideal) dot_S5000x128_S128x128_S5000x128_1_0_0_1_n_n none (truncf (F := Ideal) .bf16 x0 bitsLt_bf16_f32)
    (truncf (F := Ideal) .bf16 x1 bitsLt_bf16_f32) (constant (F := Ideal) S5000x128 .f32 0x00000000#32) y = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lrow y k := funext fun a => Fin.ext (by
    match a with
    | ⟨0, _⟩ => exact lhs_pay_0 _ _
    | ⟨1, _⟩ => exact (lhs_pay_1 _ _).trans hk)
  have er : dot_S5000x128_S128x128_S5000x128_1_0_0_1_n_n.rhsIdx y ((ValueIdx.contrEquiv1 dot_S5000x128_S128x128_S5000x128_1_0_0_1_n_n 128 rfl rfl).symm k) = rcol y k := funext fun a => Fin.ext (by
    match a with
    | ⟨0, _⟩ => exact (rhs_pay_0 _ _).trans hk
    | ⟨1, _⟩ => exact rhs_pay_1 _ _)
  rw [el, er]
  rfl

/-! ## From the blocks to the array -/

variable (m : (ℓ : Loc nD τ sig) → Buf (Elt Ideal) ℓ)

theorem hz : (![0, 0] : Fin 2 → Nat) = fun _ => 0 := funext fun a => by fin_cases a <;> rfl

/-- The printed index maps, decided over the grid: the features' block moves with the output's block down the rows,
    point `t` taking block `t`; the matrix's block and every column block stay at 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the projected features of the arrays as the region finds them. -/
theorem flushed_eq (c : Dev nD) (t : Fin cfg0.N) :
    (dats m 0 c).flushed 2 t = ((cfg0.win 2).blk t).view.read (Elt Ideal) (proj (V m c main_arg0) (V m c main_arg5)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk m c 0 t) (iblk m c 1 t) j = proj (V m c main_arg0) (V m c main_arg5) (((cfg0.win 2).blk t).view.emb j)
  refine (pay_apply (iblk m c 0 t) (iblk m c 1 t) j).trans ?_
  unfold proj
  refine Finset.sum_congr rfl fun k _ => ?_
  have h0 : ((cfg0.win 0).blk t).view.emb (lrow (R := 5000) j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rcol (R := 5000) j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hl : iblk m c 0 t (lrow (R := 5000) j k) = V m c main_arg0 (lrow (((cfg0.win 2).blk t).view.emb j) k) := by
    show V m c main_arg0 (((cfg0.win 0).blk t).view.emb (lrow (R := 5000) j k)) = _
    rw [h0]
  have hr : iblk m c 1 t (rcol (R := 5000) j k) = V m c main_arg5 (rcol (((cfg0.win 2).blk t).view.emb j) k) := by
    show V m c main_arg5 (((cfg0.win 1).blk t).view.emb (rcol (R := 5000) j k)) = _
    rw [h1]
  rw [hl, hr]

/-- An index of the array is in point `t`'s block iff each coordinate is in the block's range on its axis. -/
theorem mem_blk (t : Fin cfg0.N) (i : S40000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The blocks tile the rows: row `i` is in the block of point `i / 5000`. -/
theorem cover (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  have hN : (i 0).val / 5000 < cfg0.N := by show _ < grid0.N; rw [N_0]; omega
  obtain ⟨e0, e1, e2, e3, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    have e5' : win0_2.index ⟨(i 0).val / 5000, hN⟩ (0 : Fin 2) = (i 0).val / 5000 := e5
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    omega

/-- THE ARRAY after the run: the projected features of the node features and the projection matrix. -/
theorem final (c : Dev nD) :
    (dats m 0 c).arrAt 2 cfg0.N = proj (m ((c : Thread nD τ).loc main_arg0)) (m ((c : Thread nD τ).loc main_arg5)) := by
  rw [(dats m 0 c).arrAt_eq_of_cover 2 (proj (V m c main_arg0) (V m c main_arg5)) (fun t _ => flushed_eq m c t) (cover),
    V_main_arg0, V_main_arg5]

end Cert.KernelIdeal.Proj

end
-- ==== Proof.KernelStages.lean ====
/-
  The host operations after the kernel's region, stage by stage and element by element. They compute each relation's
  gate, scale the edge values by their relation's gate, list the edges flat, pick each edge's destination row out of
  the region's output, scale it by the edge's weight, and add it onto the row of the edge's source node, starting from
  zeros. So the result at `(n, o)` is the sum, over the edges whose source is `n`, of weight times the output's
  element `(dst, o)`.
-/
import proofs.«408652_j38371237822894_3_alg».proof.Proof.Gen.KernelIdeal
import proofs.«408652_j38371237822894_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Tail

open Cert.KernelIdeal Cert.KernelIdeal.Gen
open Idealize.ShloMosaic Idealize.ShloMosaic.ValueIdx Idealize.ShloMosaic.RowIndex
open Cert.Spec (proj un relOf gate dstRow kform)

/-! ## The tail's stages -/

/-- The edges' source nodes, listed flat, as the one column of row numbers the scatter takes. -/
def srcCol (x2 : IVec S8x160000 32) : IVec S1280000x1 32 :=
  broadcastInDim S1280000x1 ![0] bcast_S1280000_S1280000x1_0 (shapeCast S1280000 x2 shapeCasts_S8x160000_S1280000)

/-- The edges' weights, gate times value, listed flat and repeated along the 128 columns. -/
def wts (sg : FVec Ideal S8x1 .f32) (x4 : FVec Ideal S8x160000 .f32) : FVec Ideal S1280000x128 .f32 :=
  broadcastInDim S1280000x128 ![0, 1] bcast_S1280000x1_S1280000x128_0_1
    (broadcastInDim S1280000x1 ![0] bcast_S1280000_S1280000x1_0
      (shapeCast S1280000
        (mulf (broadcastInDim S8x160000 ![0, 1] bcast_S8x1_S8x160000_0_1
            (broadcastInDim S8x1 ![0] bcast_S8_S8x1_0 (shapeCast S8 sg shapeCasts_S8x1_S8))) x4)
        shapeCasts_S8x160000_S1280000))

/-- The tail's result as one term of the region's output `P` and the arguments: the gate chain and the destination
    column are the reference's own stages, the same operations on the same arguments. -/
def kterm (P : FVec Ideal S40000x128 .bf16) (x1 : FVec Ideal S8x128 .f32) (x2 x3 : IVec S8x160000 32) (x4 : FVec Ideal S8x160000 .f32)
    (x6 : FVec Ideal S128x128 .f32) (x7 : FVec Ideal S128 .f32) (x8 : FVec Ideal S128x1 .f32) : FVec Ideal S40000x128 .f32 :=
  Host.scatterAdd scatter_S40000x128_S1280000x1_S1280000x128_1_0_0_1
    (broadcastInDim S40000x128 ![] bcast_S_S40000x128 (constant (F := Ideal) S_ .f32 0x00000000#32))
    (srcCol x2)
    (mulf (wts (Cert.ReferenceIdeal.Read.val_main_v33 (F := Ideal) x1 x6 x7 x8) x4)
      (extf .f32 (Host.gather gather_S40000x128_S1280000x1_S1280000x128_1_0_n_n_0_1_1128 P
        (Cert.ReferenceIdeal.Read.val_main_v14 (F := Ideal) x3)) bitsLt_bf16_f32))

/-! ## The stages, element by element -/

/-- The source column at edge `j` is the edge's entry of the source array. -/
theorem srcCol_apply (x2 : IVec S8x160000 32) (j : Fin 1280000) : srcCol x2 (ix2 j (0 : Fin 1)) = x2 (un j) := by
  unfold srcCol
  rw [broadcastInDim_apply _ bcast_S1280000_S1280000x1_0 _ (ix2 j (0 : Fin 1)) (ix1 j) (fun a => match a with
    | ⟨0, _⟩ => by show j.val = if (1280000 : Nat) = 1 then 0 else j.val; rw [if_neg (by decide)])]
  exact shapeCast_apply x2 shapeCasts_S8x160000_S1280000 (ix1 j) (un j)
    (by rewrite [Shape.rowMajor_val_two, Shape.rowMajor_val_one]; have h0 := j.isLt; show j.val / 160000 * 160000 + j.val % 160000 = j.val; omega)

/-- The weight of edge `j`, in any column: its relation's gate times its value. -/
theorem wts_apply (sg : FVec Ideal S8x1 .f32) (x4 : FVec Ideal S8x160000 .f32) (j : Fin 1280000) (o : Fin 128) :
    wts sg x4 (ix2 j o) = sg (ix2 (relOf j) (0 : Fin 1)) * x4 (un j) := by
  unfold wts
  rw [broadcastInDim_apply _ bcast_S1280000x1_S1280000x128_0_1 _ (ix2 j o) (ix2 j (0 : Fin 1)) (fun a => match a with
    | ⟨0, _⟩ => by show j.val = if (1280000 : Nat) = 1 then 0 else j.val; rw [if_neg (by decide)]
    | ⟨1, _⟩ => by show 0 = if (1 : Nat) = 1 then 0 else o.val; rw [if_pos rfl])]
  rw [broadcastInDim_apply _ bcast_S1280000_S1280000x1_0 _ (ix2 j (0 : Fin 1)) (ix1 j) (fun a => match a with
    | ⟨0, _⟩ => by show j.val = if (1280000 : Nat) = 1 then 0 else j.val; rw [if_neg (by decide)])]
  rw [shapeCast_apply _ shapeCasts_S8x160000_S1280000 (ix1 j) (un j)
    (by rewrite [Shape.rowMajor_val_two, Shape.rowMajor_val_one]; have h0 := j.isLt; show j.val / 160000 * 160000 + j.val % 160000 = j.val; omega)]
  show _ * x4 (un j) = _
  congr 1
  rw [broadcastInDim_apply _ bcast_S8x1_S8x160000_0_1 _ (un j) (ix2 (relOf j) (0 : Fin 1)) (fun a => match a with
    | ⟨0, _⟩ => by show j.val / 160000 = if (8 : Nat) = 1 then 0 else j.val / 160000; rw [if_neg (by decide)]
    | ⟨1, _⟩ => by show 0 = if (1 : Nat) = 1 then 0 else j.val % 160000; rw [if_pos rfl])]
  rw [broadcastInDim_apply _ bcast_S8_S8x1_0 _ (ix2 (relOf j) (0 : Fin 1)) (ix1 (relOf j)) (fun a => match a with
    | ⟨0, _⟩ => by show j.val / 160000 = if (8 : Nat) = 1 then 0 else j.val / 160000; rw [if_neg (by decide)])]
  exact shapeCast_apply sg shapeCasts_S8x1_S8 (ix1 (relOf j)) (ix2 (relOf j) (0 : Fin 1))
    (by rewrite [Shape.rowMajor_val_two, Shape.rowMajor_val_one]; show j.val / 160000 * 1 + 0 = j.val / 160000; omega)

/-- The gathered row of edge `j` at column `o`: the operand's row the edge's destination names, clamped. -/
theorem gath_apply (P : FVec Ideal S40000x128 .bf16) (idx : IVec S1280000x1 32) (j : Fin 1280000) (o : Fin 128) :
    Host.gather gather_S40000x128_S1280000x1_S1280000x128_1_0_n_n_0_1_1128 P idx (ix2 j o)
      = P (ix2 (clampRow 40000 (by decide) (idx (ix2 j (0 : Fin 1)))) o) :=
  gather_rows_apply (N := 40000) (n := 1280000) (C := 128) (by decide)
    gather_S40000x128_S1280000x1_S1280000x128_1_0_n_n_0_1_1128.wf P idx j o

/-- The printed scatter read at `(n, o)`, for any operand, column of row numbers and updates. -/
theorem scat_apply (X : FVec Ideal S40000x128 .f32) (I : IVec S1280000x1 32) (U : FVec Ideal S1280000x128 .f32)
    (n : Fin 40000) (o : Fin 128) :
    Host.scatterAdd scatter_S40000x128_S1280000x1_S1280000x128_1_0_0_1 X I U (ix2 n o)
      = X (ix2 n o) + ∑ j : Fin 1280000, if (I (ix2 j (0 : Fin 1))).toInt = (n.val : Int) then U (ix2 j o) else 0 :=
  hostScatterAdd_rows_apply (N := 40000) (n := 1280000) (C := 128)
    scatter_S40000x128_S1280000x1_S1280000x128_1_0_0_1.wf X I U n o

/-- The operand the scatter starts from is zero everywhere. -/
theorem zeros_apply (n : Fin 40000) (o : Fin 128) :
    (broadcastInDim S40000x128 ![] bcast_S_S40000x128 (constant (F := Ideal) S_ .f32 0x00000000#32) : FVec Ideal S40000x128 .f32) (ix2 n o) = 0 := by
  rw [broadcastInDim_apply _ bcast_S_S40000x128 _ (ix2 n o) ix0 (fun a => a.elim0)]
  exact Ideal.ofBits_zero_f32

/-- One update element: the edge's weight times the gathered element. -/
theorem upd_apply (A : FVec Ideal S1280000x128 .f32) (G : FVec Ideal S1280000x128 .bf16) (i : S1280000x128.Idx) :
    (mulf A (extf .f32 G bitsLt_bf16_f32) : FVec Ideal S1280000x128 .f32) i = A i * G i := rfl

/-- THE TAIL'S RESULT at `(n, o)`: the sum over the edges whose source is `n` of weight times the output's element at
    the edge's destination row and column `o`. -/
theorem kterm_apply (P : FVec Ideal S40000x128 .bf16) (x1 : FVec Ideal S8x128 .f32) (x2 x3 : IVec S8x160000 32) (x4 : FVec Ideal S8x160000 .f32)
    (x6 : FVec Ideal S128x128 .f32) (x7 : FVec Ideal S128 .f32) (x8 : FVec Ideal S128x1 .f32) (n : Fin 40000) (o : Fin 128) :
    kterm P x1 x2 x3 x4 x6 x7 x8 (ix2 n o)
      = ∑ j : Fin 1280000, if (x2 (un j)).toInt = (n.val : Int)
          then (gate x1 x6 x7 x8 (relOf j) * x4 (un j)) * P (ix2 (dstRow x3 j) o) else 0 := by
  unfold kterm
  rw [scat_apply, zeros_apply, zero_add]
  refine Finset.sum_congr rfl fun j _ => ?_
  rw [srcCol_apply, upd_apply, wts_apply, gath_apply]
  unfold gate dstRow
  rfl

end Cert.KernelIdeal.Tail

end
-- ==== Proof.KernelTail.lean ====
/-
  What the kernel's program leaves in its result buffer: the lines after the region, run on the region's output (the
  projected features) and the arguments as launched, are the staged term; read at `(n, o)` it is the kernel's sum.
-/
import proofs.«408652_j38371237822894_3_alg».proof.Proof.KernelProj
import proofs.«408652_j38371237822894_3_alg».proof.Proof.KernelStages
import Idealize.ShloMosaic.Lib.StableHlo.Run

set_option maxRecDepth 16384

noncomputable section

open scoped BigOperators

namespace Cert.KernelIdeal.Tail

open Cert.KernelIdeal Cert.KernelIdeal.Gen
open Idealize.ShloMosaic Idealize.ShloMosaic.TcCoe Idealize.ShloMosaic.ValueIdx Idealize.ShloMosaic.RowIndex
open Idealize.ShloMosaic.StableHlo
open Idealize.SL Idealize.SL.Sem
open Cert.Spec (proj un relOf gate dstRow kform)

variable (m : (ℓ : Loc nD τ sig) → Buf (Elt Ideal) ℓ)

set_option maxHeartbeats 4000000 in
/-- What the lines after the region leave in the result buffer: that term of the projected features and the arguments
    as launched. -/
theorem tail_term (c : Dev nD) :
    Pipeline.afterTail₀ cfgs (dats m) 0 (V0 m) [hostOps1] c main_v33
      = kterm (proj (m ((c : Thread nD τ).loc main_arg0)) (m ((c : Thread nD τ).loc main_arg5)))
          (m ((c : Thread nD τ).loc main_arg1)) (m ((c : Thread nD τ).loc main_arg2)) (m ((c : Thread nD τ).loc main_arg3))
          (m ((c : Thread nD τ).loc main_arg4)) (m ((c : Thread nD τ).loc main_arg6)) (m ((c : Thread nD τ).loc main_arg7))
          (m ((c : Thread nD τ).loc main_arg8)) := by
  have hw (b : Ref sig .tc) (hb : ∀ w, Pipeline.arrRef spec0 w ≠ b) :
      Pipeline.withArrays (cfgs 0).spec c (V0 m c) (fun w => (dats m 0 c).arrAt w (cfgs 0).N) (Proc.devRef .tc b)
        = V0 m c (Proc.devRef .tc b) := Pipeline.withArrays_of_ne _ c (V0 m c) _ b hb
  have h1 := (hw main_arg1 (by decide)).trans (V_main_arg1 m c)
  have h2 := (hw main_arg2 (by decide)).trans (V_main_arg2 m c)
  have h3 := (hw main_arg3 (by decide)).trans (V_main_arg3 m c)
  have h4 := (hw main_arg4 (by decide)).trans (V_main_arg4 m c)
  have h6 := (hw main_arg6 (by decide)).trans (V_main_arg6 m c)
  have h7 := (hw main_arg7 (by decide)).trans (V_main_arg7 m c)
  have h8 := (hw main_arg8 (by decide)).trans (V_main_arg8 m c)
  have hP : Pipeline.withArrays (cfgs 0).spec c (V0 m c) (fun w => (dats m 0 c).arrAt w (cfgs 0).N) (Proc.devRef .tc main_v0)
      = proj (m ((c : Thread nD τ).loc main_arg0)) (m ((c : Thread nD τ).loc main_arg5)) :=
    (Pipeline.withArrays_arr spec0 launch0.win.arr_inj c _ _ 2).trans (Cert.KernelIdeal.Proj.final m c)
  unfold Pipeline.afterTail₀
  simp only [hostOps1, List.flatten_cons, List.flatten_nil, List.append_nil]
  after_results_simp
  rw [h1, h2, h3, h4, h6, h7, h8, hP]
  rfl

/-- THE KERNEL'S RESULT at `(n, o)` is the kernel's sum of the arguments as launched. -/
theorem tail_apply (c : Dev nD) (n : Fin 40000) (o : Fin 128) :
    Pipeline.afterTail₀ cfgs (dats m) 0 (V0 m) [hostOps1] c main_v33 (ix2 n o)
      = kform (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) n o := by
  rw [tail_term m c, kterm_apply]
  rfl

end Cert.KernelIdeal.Tail

end
-- ==== Proof.RefValue.lean ====
/-
  The reference's result, element by element: the last matrix product is a sum over `k`; its left operand at
  `(n, k)` is the sum over the relations `r` of the table's entry `(r · 40000 + n, k)` times relation `r`'s gate; the
  table's entry is the sum, over the edges filed under that row, of the edge's value times its destination's feature.
-/
import proofs.«408652_j38371237822894_3_alg».proof.Proof.Spec

noncomputable section

open scoped BigOperators

namespace Cert.RefValue

open Idealize.ShloMosaic Idealize.ShloMosaic.ValueIdx Idealize.ShloMosaic.RowIndex
open Cert.ReferenceIdeal Cert.ReferenceIdeal.Read Cert.Spec

/-- The flat table's index behind element `(n, k)` of relation `r`'s part: row `r · 40000 + n`, column `k`. -/
private theorem tableIdx (r : Fin 8) (n : Fin 40000) (o k : Fin 128) (hR : r.val * 40000 + n.val < 320000) :
    idx_main_v21 (idx_main_v37 (lidx_main_v38 (ix2 n o) k) r) = ix2 (⟨r.val * 40000 + n.val, hR⟩ : Fin 320000) k := by
  funext a
  refine Fin.ext ?_
  have hk := k.isLt
  match a with
  | ⟨0, _⟩ =>
    show ((r.val * 40000 + n.val) * 128 + k.val) / 128 = r.val * 40000 + n.val
    omega
  | ⟨1, _⟩ =>
    show ((r.val * 40000 + n.val) * 128 + k.val) % 128 = k.val
    omega

/-- The gate, broadcast over a relation's part of the table, read at any element of that part. -/
private theorem gate_read (x1 : FVec Ideal S8x128 .f32) (x6 : FVec Ideal S128x128 .f32) (x7 : FVec Ideal S128 .f32)
    (x8 : FVec Ideal S128x1 .f32) (r : Fin 8) (n : Fin 40000) (o k : Fin 128) :
    val_main_v35 (F := Ideal) x1 x6 x7 x8 (idx_main_v37 (lidx_main_v38 (ix2 n o) k) r) = gate x1 x6 x7 x8 r := by
  rw [val_main_v35_apply, val_main_v34_apply]
  unfold gate
  congr 1
  funext a
  refine Fin.ext ?_
  match a with
  | ⟨0, _⟩ => rfl
  | ⟨1, _⟩ => rfl

/-- The segment numbers' column at row `j` is edge `j`'s segment word. -/
private theorem seg_read (x2 : IVec S8x160000 32) (j : Fin 1280000) :
    val_main_v19 (F := Ideal) x2 (ix2 j (0 : Fin 1)) = segWord x2 j := by
  rw [val_main_v19_apply]
  unfold segWord
  congr 1
  funext a
  refine Fin.ext ?_
  match a with
  | ⟨0, _⟩ => rfl

/-- The update rows: edge `j`'s value times its destination's feature row. -/
private theorem upd_read (x0 : FVec Ideal S40000x128 .f32) (x3 : IVec S8x160000 32) (x4 : FVec Ideal S8x160000 .f32)
    (j : Fin 1280000) (k : Fin 128) :
    val_main_v17 (F := Ideal) x0 x3 x4 (ix2 j k) = x4 (un j) * x0 (ix2 (dstRow x3 j) k) := by
  rw [val_main_v17_apply, Ideal.mulf_def, val_main_v16_apply, val_main_v7_apply]
  have hu : idx_main_v7 (idx_main_v16 (ix2 j k)) = un j := by
    funext a
    refine Fin.ext ?_
    match a with
    | ⟨0, _⟩ =>
      show (j.val * 1 + 0) / 160000 = j.val / 160000
      rw [Nat.mul_one, Nat.add_zero]
    | ⟨1, _⟩ =>
      show (j.val * 1 + 0) % 160000 = j.val % 160000
      rw [Nat.mul_one, Nat.add_zero]
  rw [hu]
  congr 1
  unfold val_main_v15
  have hd : gather_S40000x128_S1280000x1_S1280000x128_1_0_n_n_0_1_1128
      = rowGatherDims 40000 1280000 128 Facts₀.gather_S40000x128_S1280000x1_S1280000x128_1_0_n_n_0_1_1128_wf := rfl
  rw [hd, gather_rows_apply (by decide)]
  rfl

/-- The scatter by rows over any operands, read at `(s, k)`: the instance of the general row lemma at this program's
    dimension numbers. -/
private theorem scatter_rows (X : FVec Ideal S320000x128 .f32) (I : IVec S1280000x1 32) (U : FVec Ideal S1280000x128 .f32)
    (s : Fin 320000) (k : Fin 128) :
    Host.scatterAdd scatter_S320000x128_S1280000x1_S1280000x128_1_0_0_1 X I U (ix2 s k)
      = X (ix2 s k) + ∑ j : Fin 1280000, if (I (ix2 j (0 : Fin 1))).toInt = (s.val : Int) then U (ix2 j k) else 0 :=
  hostScatterAdd_rows_apply (N := 320000) (n := 1280000) (C := 128)
    Facts₀.scatter_S320000x128_S1280000x1_S1280000x128_1_0_0_1_wf X I U s k

/-- The table's entry `(R, k)`: the sum, over the edges filed under row `R`, of the edge's value times its
    destination's feature in column `k`. -/
private theorem table_read (x0 : FVec Ideal S40000x128 .f32) (x2 x3 : IVec S8x160000 32) (x4 : FVec Ideal S8x160000 .f32)
    (R : Nat) (hR : R < 320000) (k : Fin 128) :
    val_main_v20 (F := Ideal) x0 x2 x3 x4 (ix2 (⟨R, hR⟩ : Fin 320000) k)
      = ∑ j : Fin 1280000, if (segWord x2 j).toInt = ((R : Nat) : Int) then x4 (un j) * x0 (ix2 (dstRow x3 j) k) else 0 := by
  unfold val_main_v20
  rw [scatter_rows, val_main_v18_apply, val_main_cst_apply]
  have hz : (FloatOps.ofBits .f32 0x00000000#32 : Ideal .f32) = 0 := Ideal.ofBits_zero_f32
  rw [hz, zero_add]
  refine Finset.sum_congr rfl fun j _ => ?_
  rw [seg_read, upd_read]

/-- The reference's result at `(n, o)` is the reference's sum. -/
theorem ref_apply (x0 : FVec Ideal S40000x128 .f32) (x1 : FVec Ideal S8x128 .f32) (x2 x3 : IVec S8x160000 32)
    (x4 : FVec Ideal S8x160000 .f32) (x5 x6 : FVec Ideal S128x128 .f32) (x7 : FVec Ideal S128 .f32)
    (x8 : FVec Ideal S128x1 .f32) (n : Fin 40000) (o : Fin 128) :
    val_main_v38 (F := Ideal) x0 x1 x2 x3 x4 x5 x6 x7 x8 (ix2 n o) = rform x0 x1 x2 x3 x4 x5 x6 x7 x8 n o := by
  rw [val_main_v38_apply]
  unfold rform
  refine Finset.sum_congr rfl fun k _ => ?_
  -- the right factor: the projection matrix at `(k, o)`
  have hx5 : ridx_main_v38 (ix2 n o) k = ix2 k o := by
    funext a
    refine Fin.ext ?_
    match a with
    | ⟨0, _⟩ => rfl
    | ⟨1, _⟩ => rfl
  -- the left factor: the sum over the relations, from initial value zero
  have hz : (FloatOps.ofBits .f32 0x00000000#32 : Ideal .f32) = 0 := Ideal.ofBits_zero_f32
  have hs : ∑ r : Fin 8, val_main_v36 (F := Ideal) x0 x1 x2 x3 x4 x6 x7 x8 (idx_main_v37 (lidx_main_v38 (ix2 n o) k) r)
      = ∑ r : Fin 8, (∑ j : Fin 1280000,
          if (segWord x2 j).toInt = ((r.val * 40000 + n.val : Nat) : Int) then x4 (un j) * x0 (ix2 (dstRow x3 j) k) else 0)
            * gate x1 x6 x7 x8 r := by
    refine Finset.sum_congr rfl fun r _ => ?_
    have hR : r.val * 40000 + n.val < 320000 := by
      have := r.isLt
      have := n.isLt
      omega
    rw [val_main_v36_apply, Ideal.mulf_def, val_main_v21_apply, tableIdx r n o k hR, table_read, gate_read]
  rw [hx5, val_main_v37_apply, val_main_cst_4_apply, hz, zero_add, hs]

end Cert.RefValue

end
-- ==== Proof.GateSeg.lean ====
/-
  Two facts about the quantities both sums share. The gate `1 / (1 + exp (−x))` is a real number whatever extended real
  `x` is: `exp` takes values in `[0, +∞]`, so the denominator lies in `[1, +∞]`, is never zero, and its inverse is a
  real (zero at `+∞`). And for a source node in `[0, 40000)` the 32-bit word `r · 40000 + src` does not wrap: read
  signed it is the number `r · 40000 + src`, for `r < 8`.
-/
import proofs.«408652_j38371237822894_3_alg».proof.Proof.Spec

noncomputable section

namespace Cert.GateSeg

open Idealize.ShloMosaic Idealize.ShloMosaic.ValueIdx Idealize.ShloMosaic.RowIndex
open Cert.ReferenceIdeal Cert.ReferenceIdeal.Read Cert.Spec

/-- The pattern `0x3F800000` denotes the real number 1. -/
private theorem ofBits_one : Ideal.ofBits .f32 0x3F800000#32 = 1 := by
  simp [Ideal.ofBits, Ideal.ieee, -EReal.coe_mul]; norm_num

/-- `1 / (1 + exp (−y))` is a real number for every extended real `y`: it is 0 at `−∞` (the denominator is `+∞`, whose
    inverse is 0), 1 at `+∞` (the denominator is 1), and `(1 + e^{−r})⁻¹` at a real `r`, where the denominator is a
    positive real. -/
private theorem logistic_real (y : EReal) : ∃ a : ℝ, Ideal.div 1 (1 + Ideal.exp (-y)) = (a : EReal) := by
  induction y using EReal.rec with
  | bot =>
    refine ⟨0, ?_⟩
    rw [EReal.neg_bot, Ideal.exp_top, ← EReal.coe_one, EReal.coe_add_top]
    unfold Ideal.div
    rw [if_neg (by simp), EReal.inv_top, mul_zero, EReal.coe_zero]
  | top =>
    refine ⟨1, ?_⟩
    rw [EReal.neg_top, Ideal.exp_bot, add_zero]
    unfold Ideal.div
    rw [if_neg one_ne_zero, inv_one, mul_one, EReal.coe_one]
  | coe r =>
    have hpos : 0 < 1 + Real.exp (-r) := by positivity
    refine ⟨(1 + Real.exp (-r))⁻¹, ?_⟩
    rw [← EReal.coe_neg, Ideal.exp_coe, ← EReal.coe_one, ← EReal.coe_add]
    unfold Ideal.div
    rw [if_neg (by exact_mod_cast hpos.ne'), ← EReal.coe_inv, ← EReal.coe_mul, one_mul]

/-- Every relation's gate is a real number, for any relation features and any weights. -/
theorem gate_real (x1 : FVec Ideal S8x128 .f32) (x6 : FVec Ideal S128x128 .f32) (x7 : FVec Ideal S128 .f32)
    (x8 : FVec Ideal S128x1 .f32) (r : Fin 8) : ∃ a : ℝ, gate x1 x6 x7 x8 r = (a : EReal) := by
  unfold gate
  rw [val_main_v33_apply, val_main_v32_apply, val_main_cst_3_apply, val_main_v31_apply, val_main_v30_apply,
    val_main_cst_2_apply, val_main_v29_apply, val_main_v28_apply]
  -- The gate is `1 / (1 + exp (−y))` with `y` the second layer's output; nothing more of `y` is needed.
  generalize val_main_v27 (F := Ideal) x1 x6 x7 x8 (ix2 r (0 : Fin 1)) = y
  show ∃ a : ℝ, Ideal.div (Ideal.ofBits .f32 0x3F800000#32) (Ideal.ofBits .f32 0x3F800000#32 + Ideal.exp (-y)) = (a : EReal)
  rw [ofBits_one]
  exact logistic_real y

/-- With every source node in range, edge `j`'s segment word read signed is its relation times 40000 plus its source. -/
theorem segWord_toInt (x2 : IVec S8x160000 32) (h2 : ∀ i, 0 ≤ (x2 i).toInt ∧ (x2 i).toInt < 40000)
    (j : Fin 1280000) : (segWord x2 j).toInt = (((relOf j).val * 40000 : Nat) : Int) + (x2 (un j)).toInt := by
  unfold segWord
  rw [val_main_v6_apply, val_main_v5_apply, val_main_v4_apply, val_main_v3_apply, val_main_v1_apply, val_main_v0_apply,
    val_main_v2_apply, val_main_c_apply]
  -- The word is `r · 40000 + x2 (un j)` in 32-bit arithmetic, `r = j / 160000` the relation.
  have hr : (idx_main_v1 (idx_main_v4 (idx_main_v6 (ix1 j))) 0).val = (relOf j).val := rfl
  have hu : idx_main_v6 (ix1 j) = un j := by
    funext a
    match a with
    | ⟨0, _⟩ => rfl
    | ⟨1, _⟩ => rfl
  rw [hr, hu]
  obtain ⟨h0, h1⟩ := h2 (un j)
  have hr8 : (relOf j).val < 8 := (relOf j).isLt
  generalize x2 (un j) = w at h0 h1 ⊢
  generalize (relOf j).val = r at hr8 ⊢
  -- A word that reads nonnegative signed reads the same unsigned.
  have hw : w.toInt = (w.toNat : Int) ∧ w.toNat < 40000 := by
    have hlt := w.isLt
    have hc := BitVec.toInt_eq_toNat_cond w
    split at hc <;> omega
  -- `r · 40000 + w < 8 · 40000 < 2³¹`: neither the product nor the sum wraps, and the result reads the same signed.
  have hsN : (IntOp.addi (IntOp.muli (BitVec.ofNat 32 r) 40000#32) w).toNat = r * 40000 + w.toNat := by
    unfold IntOp.addi IntOp.muli
    rw [BitVec.toNat_add, BitVec.toNat_mul, BitVec.toNat_ofNat, BitVec.toNat_ofNat]
    omega
  rw [BitVec.toInt_eq_toNat_of_lt (by rw [hsN]; omega), hsN, hw.1]
  push_cast
  ring

end Cert.GateSeg

end
-- ==== Proof.LibSegmentHoist.lean ====
/-
  Hoisting a right factor through a sum of segment sums.

  Rows `j : J` carry a group `rr j : R`, a weight `v j` and a vector `E j · : K → ℝ`; `hit j` says row `j` belongs to
  the segment in hand. Summing the rows of group `r` in the segment, scaling the group's sum by `a r`, adding the groups
  and only then contracting with `Wc` over `K` gives the same number as contracting each row with `Wc` first, scaling
  it by `a (rr j) · v j` and adding the rows of the segment: both are
  `∑ j in the segment, ∑ k, a (rr j) · v j · E j k · Wc k`. Over the reals this is distributivity and a change of the order
  of summation; over the extended reals it holds for real-valued data, where every term is the image of a real.
-/
import Idealize.ShloMosaic.PureOps.Ideal

noncomputable section

open scoped BigOperators

namespace Idealize.ShloMosaic.SegmentHoist

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- … and with a choice between a real and zero. -/
theorem coe_ite_zero (p : Prop) [Decidable p] (x : ℝ) : ((if p then x else 0 : ℝ) : EReal) = if p then (x : EReal) else 0 := by
  split_ifs <;> simp

/-- The identity over the reals. -/
theorem hoist_real {J K R : Type*} [Fintype J] [Fintype K] [Fintype R] [DecidableEq R]
    (rr : J → R) (hit : J → Prop) [DecidablePred hit] (v : J → ℝ) (a : R → ℝ) (E : J → K → ℝ) (Wc : K → ℝ) :
    (∑ k, (∑ r, (∑ j, if rr j = r ∧ hit j then v j * E j k else 0) * a r) * Wc k)
      = ∑ j, if hit j then (a (rr j) * v j) * ∑ k, E j k * Wc k else 0 := by
  -- each row's term on the right, written as a double sum over `k` and `r`
  have row : ∀ j, (if hit j then (a (rr j) * v j) * ∑ k, E j k * Wc k else 0)
      = ∑ k, ∑ r, (if rr j = r ∧ hit j then v j * E j k else 0) * a r * Wc k := by
    intro j
    by_cases h : hit j
    · simp only [h, and_true, if_true]
      rw [Finset.mul_sum]
      refine Finset.sum_congr rfl fun k _ => ?_
      simp only [ite_mul, zero_mul]
      rw [Finset.sum_ite_eq]
      simp only [Finset.mem_univ, if_true]
      ring
    · simp [h]
  simp_rw [row, Finset.sum_mul]
  -- right side: bring the sum over `k` outermost, then the sum over `r` outside the sum over `j`
  symm
  rw [Finset.sum_comm]
  refine Finset.sum_congr rfl fun k _ => ?_
  rw [Finset.sum_comm]

/-- The identity over the extended reals, for real-valued data. -/
theorem hoist_ereal {J K R : Type*} [Fintype J] [Fintype K] [Fintype R] [DecidableEq R]
    (rr : J → R) (hit : J → Prop) [DecidablePred hit] (v : J → ℝ) (a : R → ℝ) (E : J → K → ℝ) (Wc : K → ℝ) :
    (∑ k, (∑ r, (∑ j, if rr j = r ∧ hit j then (v j : EReal) * (E j k : EReal) else 0) * (a r : EReal)) * (Wc k : EReal))
      = ∑ j, if hit j then ((a (rr j) : EReal) * (v j : EReal)) * ∑ k, (E j k : EReal) * (Wc k : EReal) else 0 := by
  have h := congrArg (fun x : ℝ => (x : EReal)) (hoist_real rr hit v a E Wc)
  simp only [coe_sum, EReal.coe_mul, coe_ite_zero] at h
  exact h

end Idealize.ShloMosaic.SegmentHoist

end
-- ==== Proof.Bridge.lean ====
/-
  The two sums are equal when the node features, the edge values and the projection matrix are real-valued and every
  source node is in range. Then every term is the image of a real; an edge is filed under row `r · 40000 + n` exactly
  when its relation is `r` and its source is `n`; and over the reals scaling by the gate and projecting commute with
  the sums over edges and relations.
-/
import proofs.«408652_j38371237822894_3_alg».proof.Proof.Spec
import proofs.«408652_j38371237822894_3_alg».proof.Proof.GateSeg
import proofs.«408652_j38371237822894_3_alg».proof.Proof.LibSegmentHoist

noncomputable section

open scoped BigOperators

namespace Cert.Bridge

open Idealize.ShloMosaic Idealize.ShloMosaic.ValueIdx Idealize.ShloMosaic.RowIndex Idealize.ShloMosaic.SegmentHoist
open Cert.ReferenceIdeal Cert.ReferenceIdeal.Read Cert.Spec Cert.GateSeg

/-- Row `d`, column `k`: the left operand's index at output element `(d, o)`. -/
private theorem lrow_ix2 (d : Fin 40000) (o k : Fin 128) : lrow (ix2 d o) k = ix2 d k := by
  funext c
  match c with
  | ⟨0, _⟩ => exact Fin.ext rfl
  | ⟨1, _⟩ => rfl

/-- Row `k`, column `o`: the right operand's index at output element `(d, o)`. -/
private theorem rcol_ix2 (d : Fin 40000) (o k : Fin 128) : rcol (ix2 d o) k = ix2 k o := by
  funext c
  match c with
  | ⟨0, _⟩ => rfl
  | ⟨1, _⟩ => exact Fin.ext rfl

/-- The kernel's sum is the reference's sum. -/
theorem kform_eq_rform (x0 : FVec Ideal S40000x128 .f32) (x1 : FVec Ideal S8x128 .f32) (x2 x3 : IVec S8x160000 32)
    (x4 : FVec Ideal S8x160000 .f32) (x5 x6 : FVec Ideal S128x128 .f32) (x7 : FVec Ideal S128 .f32)
    (x8 : FVec Ideal S128x1 .f32)
    (h0 : ∀ i, ∃ r : ℝ, x0 i = (r : EReal)) (h4 : ∀ i, ∃ r : ℝ, x4 i = (r : EReal)) (h5 : ∀ i, ∃ r : ℝ, x5 i = (r : EReal))
    (h2 : ∀ i, 0 ≤ (x2 i).toInt ∧ (x2 i).toInt < 40000) (n : Fin 40000) (o : Fin 128) :
    kform x0 x1 x2 x3 x4 x5 x6 x7 x8 n o = rform x0 x1 x2 x3 x4 x5 x6 x7 x8 n o := by
  -- real names for the real-valued data and for the gates
  choose e0 he0 using h0
  choose v4 hv4 using h4
  choose w5 hw5 using h5
  choose a ha using gate_real x1 x6 x7 x8
  -- an edge is filed under row `r · 40000 + n` exactly when its relation is `r` and its source is `n`:
  -- `q · 40000 + s = r · 40000 + n` with `0 ≤ s, n < 40000` forces `q = r` and `s = n`
  have hseg : ∀ (r : Fin 8) (j : Fin 1280000),
      (segWord x2 j).toInt = ((r.val * 40000 + n.val : Nat) : Int)
        ↔ relOf j = r ∧ (x2 (un j)).toInt = (n.val : Int) := by
    intro r j
    rw [segWord_toInt x2 h2 j]
    have hb := h2 (un j)
    have hn := n.isLt
    constructor
    · intro h
      refine ⟨Fin.ext ?_, ?_⟩ <;> omega
    · rintro ⟨rfl, h⟩
      omega
  -- the identity over the extended reals for real-valued data, read from right to left
  have H := hoist_ereal (J := Fin 1280000) (K := Fin 128) (R := Fin 8) relOf
    (fun j => (x2 (un j)).toInt = (n.val : Int)) (fun j => v4 (un j)) a
    (fun j k => e0 (ix2 (dstRow x3 j) k)) (fun k => w5 (ix2 k o))
  refine Eq.trans ?_ (Eq.trans H.symm ?_)
  · -- the kernel's sum is the identity's right side
    unfold kform
    refine Finset.sum_congr rfl fun j _ => ?_
    refine if_congr Iff.rfl ?_ rfl
    have hproj : proj x0 x5 (ix2 (dstRow x3 j) o)
        = ∑ k : Fin 128, ((e0 (ix2 (dstRow x3 j) k) : ℝ) : EReal) * ((w5 (ix2 k o) : ℝ) : EReal) := by
      unfold proj
      refine Finset.sum_congr rfl fun k _ => ?_
      rw [lrow_ix2, rcol_ix2, he0, hw5]
    rw [ha, hv4, hproj]
  · -- the identity's left side is the reference's sum
    unfold rform
    refine Finset.sum_congr rfl fun k _ => ?_
    rw [hw5]
    refine congrArg (fun t : EReal => t * ((w5 (ix2 k o) : ℝ) : EReal)) ?_
    refine Finset.sum_congr rfl fun r _ => ?_
    rw [ha]
    refine congrArg (fun t : EReal => t * ((a r : ℝ) : EReal)) ?_
    refine Finset.sum_congr rfl fun j _ => ?_
    rw [hv4, he0]
    exact if_congr (hseg r j).symm rfl rfl

end Cert.Bridge

end
-- ==== Proof.PreFacts.lean ====
/-
  What the precondition says of the arguments, element by element: the three float arrays the sums run over hold real
  numbers, and every source-node number lies in `[0, 40000)`.
-/
import proofs.«408652_j38371237822894_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Cert.Pre_finite_inputs

/-- An extended real whose absolute value `max x (-x)` lies strictly below the value of the pattern `0x7F800000`, which is
    `+∞`, is neither infinity: it is a real number. -/
private theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by
    simp [Ideal.ofBits, Ideal.ieee]
  rw [hinf] at h
  induction x using EReal.rec with
  | bot => simp [Ideal.cmp] at h
  | coe r => exact ⟨r, rfl⟩
  | top => simp [Ideal.cmp] at h

/-- The precondition at the extended reals, read element by element: the node features `x0`, the edge values `x4` and
    the projection matrix `x5` are real-valued, and every entry of the source-node array `x2`, read signed, is a node
    number. -/
theorem of_pre [Cert.Pre_finite_inputs.Facts]
    (x0 : FVec Ideal S40000x128 .f32) (x1 : FVec Ideal S8x128 .f32) (x2 x3 : IVec S8x160000 32)
    (x4 : FVec Ideal S8x160000 .f32) (x5 x6 : FVec Ideal S128x128 .f32) (x7 : FVec Ideal S128 .f32)
    (x8 : FVec Ideal S128x1 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x4 i = (r : EReal)) ∧ (∀ i, ∃ r : ℝ, x5 i = (r : EReal))
      ∧ (∀ i, 0 ≤ (x2 i).toInt ∧ (x2 i).toInt < 40000) := by
  -- The scalar shape has one index, so a conjunction over all entries that comes out 1 had a 1 at every entry.
  haveI : Subsingleton S_.Idx := ⟨fun a b => funext fun d => d.elim0⟩
  have h0 := congrFun h ValueIdx.ix0
  dsimp only [fn, fn_part1, fn_part2] at h0
  -- The precondition is a conjunction of eight one-bit words, nested to the left; peel them off from the right:
  -- the range test on `x2`, then the tests `|x| < +∞` on `x8`, `x7`, `x6`, `x5`, `x4`, `x1`, `x0`.
  obtain ⟨h0, hx2⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hx5⟩ := IntOp.andi_eq_one.1 h0
  obtain ⟨h0, hx4⟩ := IntOp.andi_eq_one.1 h0
  obtain ⟨hx0, -⟩ := IntOp.andi_eq_one.1 h0
  refine ⟨fun i => ?_, fun i => ?_, fun i => ?_, fun i => ?_⟩
  · exact real_of_abs_lt_inf (x0 i) (Host.reduce_andi_all _ _ _ _ ValueIdx.ix0 hx0 i)
  · exact real_of_abs_lt_inf (x4 i) (Host.reduce_andi_all _ _ _ _ ValueIdx.ix0 hx4 i)
  · exact real_of_abs_lt_inf (x5 i) (Host.reduce_andi_all _ _ _ _ ValueIdx.ix0 hx5 i)
  · -- At entry `i` the two signed comparisons `0 ≤ x2 i` and `x2 i < 40000` both hold.
    obtain ⟨hge, hlt⟩ := IntOp.andi_eq_one.1 (Host.reduce_andi_all _ _ _ _ ValueIdx.ix0 hx2 i)
    have hge' : (0#32 : BitVec 32).toInt ≤ (x2 i).toInt := IntOp.cmpi_sge.1 hge
    have hlt' : (x2 i).toInt < (40000#32 : BitVec 32).toInt := IntOp.cmpi_slt.1 hlt
    have e0 : (0#32 : BitVec 32).toInt = 0 := by decide
    have e1 : (40000#32 : BitVec 32).toInt = 40000 := by decide
    rw [e0] at hge'
    rw [e1] at hlt'
    exact ⟨hge', hlt'⟩

end Cert.PreFacts

end
-- ==== Proof.lean ====
/-
  The certificate: the kernel's program and the reference compute the same node update over the extended reals.

  The kernel projects the node features through the weight matrix inside its one region (block by block, the blocks
  tiling the rows) and then, on the host, adds onto each node the gate-weighted projected rows of the edges that start
  there. The reference adds the edges' unprojected rows into a table with one row per (relation, node), scales each
  relation's part by its gate, adds the relations and projects last. Element by element both are finite sums of
  products of real numbers, once the node features, the edge values and the weight matrix are finite and every source
  node lies in the node range (the precondition says both); the gate is a real whatever its inputs. An edge is filed
  under row `r · 40000 + n` exactly when its relation is `r` and its source is `n`, and over the reals scaling by the
  gate and projecting commute with the sums over edges and relations. The three frames are the generated ones; the
  idealization rewrote nothing.
-/
import proofs.«408652_j38371237822894_3_alg».proof.Defs
import proofs.«408652_j38371237822894_3_alg».proof.Proof.Gen.Kernel
import proofs.«408652_j38371237822894_3_alg».proof.Proof.Gen.Kernel.Skeleton
import proofs.«408652_j38371237822894_3_alg».proof.Proof.Gen.Kernel.Launch
import proofs.«408652_j38371237822894_3_alg».proof.Proof.Gen.Kernel.Points
import proofs.«408652_j38371237822894_3_alg».proof.Proof.Gen.Kernel.Frame
import proofs.«408652_j38371237822894_3_alg».proof.Proof.Gen.KernelIdeal
import proofs.«408652_j38371237822894_3_alg».proof.Proof.Gen.KernelIdeal.Skeleton
import proofs.«408652_j38371237822894_3_alg».proof.Proof.Gen.KernelIdeal.Launch
import proofs.«408652_j38371237822894_3_alg».proof.Proof.Gen.KernelIdeal.Points
import proofs.«408652_j38371237822894_3_alg».proof.Proof.Gen.KernelIdeal.Frame
import proofs.«408652_j38371237822894_3_alg».proof.Proof.Gen.ReferenceIdeal
import proofs.«408652_j38371237822894_3_alg».proof.Proof.Gen.ReferenceIdeal.Run
import proofs.«408652_j38371237822894_3_alg».proof.Proof.Gen.ReferenceIdeal.Read
import proofs.«408652_j38371237822894_3_alg».proof.Proof.Gen.Pre_finite_inputs
import proofs.«408652_j38371237822894_3_alg».proof.Proof.KernelTail
import proofs.«408652_j38371237822894_3_alg».proof.Proof.RefValue
import proofs.«408652_j38371237822894_3_alg».proof.Proof.Bridge
import proofs.«408652_j38371237822894_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

section KernelRun

open Cert.KernelIdeal Cert.KernelIdeal.Gen Idealize.ShloMosaic.Pipeline

/-- The kernel's run with its result buffer named: what the lines after the region leave there, the arguments unchanged
    (the argument clauses are the generated frame's own, read off the same run). -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = Pipeline.afterTail₀ cfgs (dats m) 0 (V0 m) [hostOps1] c main_v33
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c).2 main_v33 (Pipeline.mem_restRefs_of main_v33 (by decide) (by decide)),
      (((h c).2 main_arg1 (Pipeline.mem_restRefs_of main_arg1 (by decide) (by decide))).trans (W_main_arg1 m (dats m) c)),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 1).trans ((((dats m) 0 c).arrAt_in 1 rfl _).trans ((A_eq m c 1).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end KernelRun

/-- The two programs' results agree: element `(n, o)` of the kernel's is the kernel's sum, of the reference's the
    reference's sum, of arguments that agree; the sums are equal under what the precondition says. -/
theorem algebraic : Cert.algebraic_KernelIdeal_ReferenceIdeal := by
  intro m ρ m' ρ' hpre hagree
  refine ⟨fun c => Idealize.ShloMosaic.Pipeline.afterTail₀ Cert.KernelIdeal.cfgs (Cert.KernelIdeal.Gen.dats m) 0
      (Cert.KernelIdeal.Gen.V0 m) [Cert.KernelIdeal.Gen.hostOps1] c Cert.KernelIdeal.main_v33,
    fun c => m ((c.tc : Thread Cert.KernelIdeal.nD Cert.KernelIdeal.τ).loc Cert.KernelIdeal.main_arg1),
    kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v38_eq]
    obtain ⟨e0, e1, e2, e3, e4, e5, e6, e7, e8⟩ := hagree c
    rw [e0, e1, e2, e3, e4, e5, e6, e7, e8]
    obtain ⟨h0, h4, h5, h2⟩ := Cert.PreFacts.of_pre _ _ _ _ _ _ _ _ _ (hpre c)
    funext i
    obtain ⟨n, o, rfl⟩ : ∃ (n : Fin 40000) (o : Fin 128), i = ix2 n o := ⟨i 0, i 1, eq_ix2 i⟩
    beta_reduce
    rw [Cert.RefValue.ref_apply, Cert.KernelIdeal.Tail.tail_apply, Cert.Bridge.kform_eq_rform _ _ _ _ _ _ _ _ _ h0 h4 h5 h2]
  · rw [(h c).2.1]
    exact (hagree c).2.1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
